-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S512x64 : Shape := ⟨2, ![512, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x64 .f32) (main_arg1 : FVec F S512x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S8192x64 : Shape := ⟨2, ![8192, 64]⟩
abbrev S512x64 : Shape := ⟨2, ![512, 64]⟩
abbrev S64x512 : Shape := ⟨2, ![64, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S8192x512 : Shape := ⟨2, ![8192, 512]⟩
abbrev S2x1x512 : Shape := ⟨3, ![2, 1, 512]⟩
abbrev S2x1x1 : Shape := ⟨3, ![2, 1, 1]⟩
abbrev S1024x64 : Shape := ⟨2, ![1024, 64]⟩
abbrev S1024x512 : Shape := ⟨2, ![1024, 512]⟩
abbrev S1x1x512 : Shape := ⟨3, ![1, 1, 512]⟩
abbrev S1x1x1 : Shape := ⟨3, ![1, 1, 1]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S2x512 : Shape := ⟨2, ![2, 512]⟩
abbrev S2 : Shape := ⟨1, ![2]⟩

abbrev nBuf : Space → Nat
  | .hbm => 24
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S64x512, .f32⟩
  | .hbm, ⟨3, _⟩ => ⟨S64x512, .bf16⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S1x512, .f32⟩
  | .hbm, ⟨9, _⟩ => ⟨S8192x512, .f32⟩
  | .hbm, ⟨10, _⟩ => ⟨S2x1x512, .f32⟩
  | .hbm, ⟨11, _⟩ => ⟨S2x1x1, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S64x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1x1, .f32⟩
  | .local _ .vmem, ⟨9, _⟩ => ⟨S1x1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S512x64_S64x512_1_0 : S512x64.Transposes [1, 0] S64x512
  bitsLt_bf16_f32 : FTy.bits .bf16 < FTy.bits .f32
  reducesTo_S512x64_S512_d1 : S512x64.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  inb_S1x1x1_S1x1x1_0_0_0 : ∀ a, (![0, 0, 0] : Fin 3 → Nat) a + S1x1x1.size a ≤ S1x1x1.size a
  h_S1x1x1 : 0 < S1x1x1.numel
  inb_S1024x64_S1024x64_0_0 : ∀ a, (![0, 0] : Fin 2 → Nat) a + S1024x64.size a ≤ S1024x64.size a
  h_S1024x64 : 0 < S1024x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x64_S1024 : S1024x64.Reduces [1] S1024
  shapeCasts_S1024_S1024x1 : S1024.ShapeCasts S1024x1
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  shapeCasts_S1x1x512_S1x512 : S1x1x512.ShapeCasts S1x512
  shapeCasts_S1x512_S1x1x512 : S1x512.ShapeCasts S1x1x512
  reduces_S1024x512_S1024 : S1024x512.Reduces [1] S1024
  reduces_S1024x1_S1 : S1024x1.Reduces [0] S1
  shapeCasts_S1_S1x1 : S1.ShapeCasts S1x1
  shapeCasts_S1x1x1_S1x1 : S1x1x1.ShapeCasts S1x1
  shapeCasts_S1x1_S1x1x1 : S1x1.ShapeCasts S1x1x1
  shapeCasts_S2x1x512_S2x512 : S2x1x512.ShapeCasts S2x512
  reducesTo_S2x512_S512_d0 : S2x512.ReducesTo [0] S512
  reducesTo_S512_S_d0 : S512.ReducesTo [0] S_
  shapeCasts_S2x1x1_S2 : S2x1x1.ShapeCasts S2
  reducesTo_S2_S_d0 : S2.ReducesTo [0] S_
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64 : Shape := ⟨2, ![8192, 64]⟩
abbrev S512x64 : Shape := ⟨2, ![512, 64]⟩
abbrev S8192x1x64 : Shape := ⟨3, ![8192, 1, 64]⟩
abbrev S1x512x64 : Shape := ⟨3, ![1, 512, 64]⟩
abbrev S8192x512x64 : Shape := ⟨3, ![8192, 512, 64]⟩
abbrev S_ : Shape := ⟨0, ![]⟩
abbrev S8192x512 : Shape := ⟨2, ![8192, 512]⟩
abbrev S512 : Shape := ⟨1, ![512]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S8192x1x64, .f32⟩
  | .hbm, ⟨3, _⟩ => ⟨S1x512x64, .f32⟩
  | .hbm, ⟨4, _⟩ => ⟨S8192x512x64, .f32⟩
  | .hbm, ⟨5, _⟩ => ⟨S8192x512x64, .f32⟩
  | .hbm, ⟨6, _⟩ => ⟨S8192x512x64, .f32⟩
  | .hbm, ⟨7, _⟩ => ⟨S8192x512x64, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S8192x64_S8192x1x64_0_2 : S8192x64.BroadcastsInDim S8192x1x64 (![0, 2] : Fin 2 → Fin S8192x1x64.rank)
  bcast_S512x64_S1x512x64_1_2 : S512x64.BroadcastsInDim S1x512x64 (![1, 2] : Fin 2 → Fin S1x512x64.rank)
  bcast_S8192x1x64_S8192x512x64_0_1_2 : S8192x1x64.BroadcastsInDim S8192x512x64 (![0, 1, 2] : Fin 3 → Fin S8192x512x64.rank)
  bcast_S1x512x64_S8192x512x64_0_1_2 : S1x512x64.BroadcastsInDim S8192x512x64 (![0, 1, 2] : Fin 3 → Fin S8192x512x64.rank)
  reducesTo_S8192x512x64_S8192x512_d2 : S8192x512x64.ReducesTo [2] S8192x512
  h_S_ : 0 < S_.numel
  reducesTo_S8192x512_S512_d0 : S8192x512.ReducesTo [0] S512
  reducesTo_S512_S_d0 : S512.ReducesTo [0] S_
  reducesTo_S8192x512_S8192_d1 : S8192x512.ReducesTo [1] S8192
  reducesTo_S8192_S_d0 : S8192.ReducesTo [0] S_

variable [Facts₀]

class Facts : Prop extends Facts₀ where

variable [Facts]
-- ==== Proof.Pieces.lean ====
/-
  What one run of the kernel body leaves in its three output buffers, as the body's pure payload terms:
  the tile of distances, the column-minimum accumulator (reset to +∞ at the first tile of a group, else
  carried) and the row-minimum-sum accumulator (reset to 0 at the first tile of a group, else carried).
-/
import proofs.«427825_j11802570129617_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first tile of a group the distance buffer ends at the tile's distances. -/
theorem tileA (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : cond0_0 i)
    (x0 : Vec F S1024x64 .f32) (x1 : Vec F S64x512 .bf16) (x2 : Vec F S1x512 .f32) :
    out0_A_3 c i a2 h2 a3 h3 a4 h4 a5 h5 a6 h6 a7 h7 hc x0 x1 x2 = k0_pay4 x0 x1 x2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2]
  simp only [View.readAt_eq_ld, h2.read_unread, h3.read_unread, h4.read_unread, View.ld_unit_zero (S := S1024x64) hz2, View.ld_unit_zero (S := S64x512) hz2, View.ld_unit_zero (S := S1x512) hz2]

/-- At the first tile of a group the column-minimum buffer is reset to +∞ and then updated with the tile. -/
theorem colMinA (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : cond0_0 i)
    (x0 : Vec F S1024x64 .f32) (x1 : Vec F S64x512 .bf16) (x2 : Vec F S1x512 .f32) :
    out0_A_4 c i a2 h2 a3 h3 a4 h4 a5 h5 a6 h6 a7 h7 hc x0 x1 x2 = k0_pay5 x0 x1 x2 (k0_pay2 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, View.ld_unit_zero (S := S1024x64) hz2, View.ld_unit_zero (S := S64x512) hz2, View.ld_unit_zero (S := S1x512) hz2]

/-- At the first tile of a group the row-minimum-sum buffer is reset to 0 and then the tile's sum is added. -/
theorem rowSumA (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : cond0_0 i)
    (x0 : Vec F S1024x64 .f32) (x1 : Vec F S64x512 .bf16) (x2 : Vec F S1x512 .f32) :
    out0_A_5 c i a2 h2 a3 h3 a4 h4 a5 h5 a6 h6 a7 h7 hc x0 x1 x2 = k0_pay1 (k0_pay6 x0 x1 x2) (k0_pay3 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, View.ld_unit_zero (S := S1024x64) hz2, View.ld_unit_zero (S := S64x512) hz2, View.ld_unit_zero (S := S1x512) hz2]

/-- At a later tile of a group the distance buffer ends at the tile's distances. -/
theorem tileB (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : ¬cond0_0 i)
    (x0 : Vec F S1024x64 .f32) (x1 : Vec F S64x512 .bf16) (x2 : Vec F S1x512 .f32) (xo4 : Vec F S1x1x512 .f32) (xo5 : Vec F S1x1x1 .f32) :
    out0_B_3 c i a2 h2 a3 h3 a4 h4 a5 h5 a6 h6 a7 h7 hc x0 x1 x2 xo4 xo5 = k0_pay4 x0 x1 x2 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero hz2]
  simp only [View.readAt_eq_ld, h2.read_unread, h3.read_unread, h4.read_unread, View.ld_unit_zero (S := S1024x64) hz2, View.ld_unit_zero (S := S64x512) hz2, View.ld_unit_zero (S := S1x512) hz2]

/-- At a later tile of a group the column-minimum buffer is updated from what the tile before left. -/
theorem colMinB (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : ¬cond0_0 i)
    (x0 : Vec F S1024x64 .f32) (x1 : Vec F S64x512 .bf16) (x2 : Vec F S1x512 .f32) (xo4 : Vec F S1x1x512 .f32) (xo5 : Vec F S1x1x1 .f32) :
    out0_B_4 c i a2 h2 a3 h3 a4 h4 a5 h5 a6 h6 a7 h7 hc x0 x1 x2 xo4 xo5 = k0_pay5 x0 x1 x2 xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, View.ld_unit_zero (S := S1024x64) hz2, View.ld_unit_zero (S := S64x512) hz2, View.ld_unit_zero (S := S1x512) hz2, h6.read_unread, View.ld_unit_zero (S := S1x1x512) hz3]

/-- At a later tile of a group the tile's sum of row minima is added to what the tile before left. -/
theorem rowSumB (c : Dev nD) (i : grid0.Coords) (a2 : Memref sig .tc .vmem S1024x64 .f32) (h2 : a2.IsWhole) (a3 : Memref sig .tc .vmem S64x512 .bf16) (h3 : a3.IsWhole) (a4 : Memref sig .tc .vmem S1x512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x1 .f32) (h7 : a7.IsWhole) (hc : ¬cond0_0 i)
    (x0 : Vec F S1024x64 .f32) (x1 : Vec F S64x512 .bf16) (x2 : Vec F S1x512 .f32) (xo4 : Vec F S1x1x512 .f32) (xo5 : Vec F S1x1x1 .f32) :
    out0_B_5 c i a2 h2 a3 h3 a4 h4 a5 h5 a6 h6 a7 h7 hc x0 x1 x2 xo4 xo5 = k0_pay1 (k0_pay6 x0 x1 x2) xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, View.ld_unit_zero (S := S1024x64) hz2, View.ld_unit_zero (S := S64x512) hz2, View.ld_unit_zero (S := S1x512) hz2, h7.read_unread, View.ld_unit_zero (S := S1x1x1) hz3]

end Cert.KernelIdeal.Pieces

end
-- ==== Proof.Accum.lean ====
/-
  What the three output buffers hold after each tile, in closed form: the tile's distances, and the two
  accumulators as folds over the tiles of the current group of four (restarted at tiles 0 and 4).
-/
import proofs.«427825_j11802570129617_3_alg».proof.Proof.Pieces

noncomputable section

namespace Cert.KernelIdeal.Accum

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- Tile t's three input blocks: 1024 rows of x, the transposed table, the table's squared row norms. -/
abbrev xblk (c : Dev nD) (t : Fin cfg0.N) : Vec F S1024x64 .f32 := iblk m c 0 t
abbrev ptblk (c : Dev nD) (t : Fin cfg0.N) : Vec F S64x512 .bf16 := iblk m c 1 t
abbrev psqblk (c : Dev nD) (t : Fin cfg0.N) : Vec F S1x512 .f32 := iblk m c 2 t

/-- Tile t's distances. -/
def tile (c : Dev nD) (t : Fin cfg0.N) : Vec F S1024x512 .f32 := k0_pay4 (xblk m c t) (ptblk m c t) (psqblk m c t)

/-- The column-minimum accumulator after tile n. -/
def colAcc (c : Dev nD) : (n : ℕ) → n < cfg0.N → Vec F S1x1x512 .f32
  | 0, h => k0_pay5 (xblk m c ⟨0, h⟩) (ptblk m c ⟨0, h⟩) (psqblk m c ⟨0, h⟩) (k0_pay2 (F := F))
  | n + 1, h =>
    if (n + 1) % 4 = 0 then k0_pay5 (xblk m c ⟨n + 1, h⟩) (ptblk m c ⟨n + 1, h⟩) (psqblk m c ⟨n + 1, h⟩) (k0_pay2 (F := F))
    else k0_pay5 (xblk m c ⟨n + 1, h⟩) (ptblk m c ⟨n + 1, h⟩) (psqblk m c ⟨n + 1, h⟩) (colAcc c n (Nat.lt_of_succ_lt h))

/-- The row-minimum-sum accumulator after tile n. -/
def sumAcc (c : Dev nD) : (n : ℕ) → n < cfg0.N → Vec F S1x1x1 .f32
  | 0, h => k0_pay1 (k0_pay6 (xblk m c ⟨0, h⟩) (ptblk m c ⟨0, h⟩) (psqblk m c ⟨0, h⟩)) (k0_pay3 (F := F))
  | n + 1, h =>
    if (n + 1) % 4 = 0 then k0_pay1 (k0_pay6 (xblk m c ⟨n + 1, h⟩) (ptblk m c ⟨n + 1, h⟩) (psqblk m c ⟨n + 1, h⟩)) (k0_pay3 (F := F))
    else k0_pay1 (k0_pay6 (xblk m c ⟨n + 1, h⟩) (ptblk m c ⟨n + 1, h⟩) (psqblk m c ⟨n + 1, h⟩)) (sumAcc c n (Nat.lt_of_succ_lt h))

/-- After tile n the buffers hold the tile's distances and the two accumulators: by induction on the tile. -/
theorem outsAt_eq (c : Dev nD) : ∀ (n : ℕ) (h : n < cfg0.N),
    outsAt0 m c n h = (tile m c ⟨n, h⟩, colAcc m c n h, sumAcc m c n h)
  | 0, h => by
    rw [outsAt0_A m c ⟨0, h⟩ rfl, tileA, colMinA, rowSumA]
    rfl
  | n + 1, h => by
    by_cases h0 : (n + 1) % 4 = 0
    · rw [outsAt0_A m c ⟨n + 1, h⟩ h0, tileA, colMinA, rowSumA]
      simp only [colAcc, sumAcc, if_pos h0]
      rfl
    · rw [outsAt0_B m c ⟨n + 1, h⟩ h0, tileB, colMinB, rowSumB]
      simp only [colAcc, sumAcc, if_neg h0]
      show (_, k0_pay5 _ _ _ (outsAt0 m c n _).2.1, k0_pay1 _ (outsAt0 m c n _).2.2) = _
      rw [outsAt_eq c n]
      rfl

end Cert.KernelIdeal.Accum

end
-- ==== Proof.Spec.lean ====
/-
  The mathematics shared by both sides. For x : 8192 × 64 and p : 512 × 64 over the extended reals,
  the Euclidean distance table is D(R, v) = √(0 + ∑ₖ (x(R,k) − p(v,k))²). The kernel computes it in
  the expanded form √(max(‖x_R‖² + ‖p_v‖² − 2·⟨x_R, p_v⟩, 0)), tile by tile (eight tiles of 1024 rows),
  and carries two accumulators per group of four tiles: the running column minimum and the running
  sum of the row minima.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

abbrev XS : Shape := ⟨2, ![8192, 64]⟩
abbrev PS : Shape := ⟨2, ![512, 64]⟩

/-- The three float words the programs use: +0, +∞ and 2. -/
abbrev zeroW : EReal := Ideal.ofBits .f32 0x00000000#32
abbrev infW : EReal := Ideal.ofBits .f32 0x7F800000#32
abbrev twoW : EReal := Ideal.ofBits .f32 0x40000000#32

/-- An extended real that is a real number. -/
def IsReal (a : EReal) : Prop := ∃ r : ℝ, a = (r : EReal)

/-- The distance between row R of x and row v of p: the square root of the sum of squared differences. -/
def dist (x : XS.Idx → EReal) (p : PS.Idx → EReal) (R : Fin 8192) (v : Fin 512) : EReal :=
  Ideal.sqrt (zeroW + ∑ k : Fin 64, (x (ix2 R k) - p (ix2 v k)) * (x (ix2 R k) - p (ix2 v k)))

/-- The same distance in the expanded form ‖x_R‖² + ‖p_v‖² − 2⟨x_R, p_v⟩, clamped at zero. -/
def kdist (x : XS.Idx → EReal) (p : PS.Idx → EReal) (R : Fin 8192) (v : Fin 512) : EReal :=
  Ideal.sqrt (max (((∑ k : Fin 64, x (ix2 R k) * x (ix2 R k)) + (zeroW + ∑ k : Fin 64, p (ix2 v k) * p (ix2 v k)))
    - twoW * ∑ k : Fin 64, x (ix2 R k) * p (ix2 v k)) zeroW)

/-- Row r of tile t is row 1024·t + r of the table. -/
def row (t : Fin 8) (r : Fin 1024) : Fin 8192 := ⟨1024 * t.val + r.val, by have := t.isLt; have := r.isLt; omega⟩

/-- The running minimum over the tiles of one group of four: restarted from +∞ at the first tile of a group. -/
def runMin (g : Fin 8 → EReal) : (n : ℕ) → n < 8 → EReal
  | 0, h => min infW (g ⟨0, h⟩)
  | n + 1, h => if (n + 1) % 4 = 0 then min infW (g ⟨n + 1, h⟩) else min (runMin g n (Nat.lt_of_succ_lt h)) (g ⟨n + 1, h⟩)

/-- The running sum over the tiles of one group of four: restarted from 0 at the first tile of a group. -/
def runSum (g : Fin 8 → EReal) : (n : ℕ) → n < 8 → EReal
  | 0, h => zeroW + g ⟨0, h⟩
  | n + 1, h => if (n + 1) % 4 = 0 then zeroW + g ⟨n + 1, h⟩ else runSum g n (Nat.lt_of_succ_lt h) + g ⟨n + 1, h⟩

/-- The last tile of group c. -/
def lastOf (c : Fin 2) : Fin 8 := ⟨4 * c.val + 3, by have := c.isLt; omega⟩

end Cert.Dist

end
-- ==== Proof.Blocks.lean ====
/-
  The three input blocks of a tile, read at an index from the program's two arguments: tile t's rows of x
  are rows 1024·t … 1024·t + 1023; the staged table is p transposed; the staged norms are 0 + ∑ₖ p(v,k)².
-/
import proofs.«427825_j11802570129617_3_alg».proof.Proof.Accum
import proofs.«427825_j11802570129617_3_alg».proof.Proof.Spec
import Idealize.ShloMosaic.Lib.StableHlo.Run
import Idealize.ShloMosaic.Lib.ValueLayout

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Accum Cert.Dist

variable (m : (ℓ : Loc nD τ sig) → Buf (Elt Ideal) ℓ)

/-- The two arguments as the run finds them. -/
abbrev xarg (c : Dev nD) : XS.Idx → EReal := m ((c.tc : Thread nD τ).loc main_arg0)
abbrev parg (c : Dev nD) : PS.Idx → EReal := m ((c.tc : Thread nD τ).loc main_arg1)

/-- A grid point as a tile number below 8. -/
abbrev tl (t : Fin cfg0.N) : Fin 8 := t.cast N_0

/-- Tile t's block of x starts at row block t, column block 0. -/
private theorem idx_x : ∀ t : Fin grid0.N, win0_0.index t 0 = t.val ∧ win0_0.index t 1 = 0 := by decide +kernel
/-- Every tile's block of the staged table starts at block (0, 0). -/
private theorem idx_pt : ∀ t : Fin grid0.N, win0_1.index t 0 = 0 ∧ win0_1.index t 1 = 0 := by decide +kernel
/-- Every tile's block of the staged norms starts at block (0, 0). -/
private theorem idx_psq : ∀ t : Fin grid0.N, win0_2.index t 0 = 0 ∧ win0_2.index t 1 = 0 := by decide +kernel

/-- Tile t's block of x at (r, k) is x at (1024·t + r, k). -/
theorem xblk_at (c : Dev nD) (t : Fin cfg0.N) (r : Fin 1024) (k : Fin 64) :
    xblk m c t (ix2 r k) = xarg m c (ix2 (row (tl t) r) k) := by
  have hi := idx_x t
  unfold xblk iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 64 + 1 * k.val = k.val; rw [hi.2]; omega

/-- A matrix transposed and converted to bf16, read at (k, v), is the matrix at (v, k): over the extended reals the
    conversion is the identity. -/
private theorem pt_read (p : S512x64.Idx → EReal) (k : Fin 64) (v : Fin 512) :
    (truncf .bf16 (transpose S64x512 [1, 0] p Facts₀.transposes_S512x64_S64x512_1_0 : FVec Ideal S64x512 .f32)
      Facts₀.bitsLt_bf16_f32 : FVec Ideal S64x512 .bf16) (ix2 k v) = p (ix2 v k) :=
  transpose_ix2_apply p _ k v

/-- The staged table as the tiles find it: p transposed, converted to bf16. -/
private theorem V_pt (c : Dev nD) : (V m c main_v1 : S64x512.Idx → EReal)
    = truncf .bf16 (transpose S64x512 [1, 0] (parg m c) Facts₀.transposes_S512x64_S64x512_1_0 : FVec Ideal S64x512 .f32)
        Facts₀.bitsLt_bf16_f32 := by
  show StableHlo.after hostOps0 (fun b => m (c, b)) (Proc.devRef .tc main_v1) = _
  after_results

/-- Every tile's block of the staged table at (k, v) is p at (v, k). -/
theorem ptblk_at (c : Dev nD) (t : Fin cfg0.N) (k : Fin 64) (v : Fin 512) :
    ptblk m c t (ix2 k v) = parg m c (ix2 v k) := by
  have hi := idx_pt t
  unfold ptblk iblk
  rw [View.read_apply]
  show V m c main_v1 _ = _
  rw [V_pt m c]
  refine Eq.trans (congrArg _ ?_) (pt_read (parg m c) k v)
  funext a
  apply Fin.ext
  match a with
  | ⟨0, _⟩ => show win0_1.index t 0 * 64 + 1 * k.val = k.val; rw [hi.1]; omega
  | ⟨1, _⟩ => show win0_1.index t 1 * 512 + 1 * v.val = v.val; rw [hi.2]; omega

/-- The row sums of p·p from the constant 0, broadcast to a column and transposed to a row, read at (0, v):
    0 + ∑ₖ p(v,k)². -/
private theorem psq_read (p : S512x64.Idx → EReal) (v : Fin 512) :
    (transpose S1x512 [1, 0]
      (broadcastInDim S512x1 ![0] Facts₀.bcast_S512_S512x1_0
        (Host.reduceAdd (mulf p p : FVec Ideal S512x64 .f32) (constant (F := Ideal) S_ .f32 0x00000000#32)
          Facts₀.reducesTo_S512x64_S512_d1 Facts₀.h_S_ : FVec Ideal S512 .f32) : FVec Ideal S512x1 .f32)
      Facts₀.transposes_S512x1_S1x512_1_0 : FVec Ideal S1x512 .f32) (ix2 0 v)
      = zeroW + ∑ k : Fin 64, p (ix2 v k) * p (ix2 v k) := by
  refine (transpose_ix2_apply _ _ (0 : Fin 1) v).trans ?_
  refine (broadcastInDim_apply _ Facts₀.bcast_S512_S512x1_0 _ (ix2 v (0 : Fin 1)) (ix1 v) (fun a => match a with
    | ⟨0, _⟩ => by show v.val = if (512 : Nat) = 1 then 0 else v.val; rw [if_neg (by decide)])).trans ?_
  simp only [Host.reduceAdd, Ideal.hostReduceAdd_def]
  rw [Ideal.hostReduceAdd_single Facts₀.reducesTo_S512x64_S512_d1 (by decide)]
  refine congrArg (_ + ·) (Finset.sum_congr rfl fun k _ => ?_)
  have e : ∀ h : S512x64.Reduces [1] S512, h.lift (ix1 v) k = ix2 v k := fun h =>
    funext fun a => Fin.ext (by match a with | ⟨0, _⟩ => rfl | ⟨1, _⟩ => rfl)
  rw [e]
  rfl

/-- The staged norms as the tiles find them: the row sums of p·p from 0, as a row. -/
private theorem V_psq (c : Dev nD) : (V m c main_v5 : S1x512.Idx → EReal)
    = transpose S1x512 [1, 0]
      (broadcastInDim S512x1 ![0] Facts₀.bcast_S512_S512x1_0
        (Host.reduceAdd (mulf (parg m c) (parg m c) : FVec Ideal S512x64 .f32) (constant (F := Ideal) S_ .f32 0x00000000#32)
          Facts₀.reducesTo_S512x64_S512_d1 Facts₀.h_S_ : FVec Ideal S512 .f32) : FVec Ideal S512x1 .f32)
      Facts₀.transposes_S512x1_S1x512_1_0 := by
  show StableHlo.after hostOps0 (fun b => m (c, b)) (Proc.devRef .tc main_v5) = _
  after_results

/-- Every tile's block of the staged norms at (0, v) is 0 + ∑ₖ p(v,k)². -/
theorem psqblk_at (c : Dev nD) (t : Fin cfg0.N) (v : Fin 512) :
    psqblk m c t (ix2 0 v) = zeroW + ∑ k : Fin 64, parg m c (ix2 v k) * parg m c (ix2 v k) := by
  have hi := idx_psq t
  unfold psqblk iblk
  rw [View.read_apply]
  show V m c main_v5 _ = _
  rw [V_psq m c]
  refine Eq.trans (congrArg _ ?_) (psq_read (parg m c) v)
  funext a
  apply Fin.ext
  match a with
  | ⟨0, _⟩ => show win0_2.index t 0 * 1 + 1 * 0 = 0; rw [hi.1]
  | ⟨1, _⟩ => show win0_2.index t 1 * 512 + 1 * v.val = v.val; rw [hi.2]; omega

end Cert.KernelIdeal.Blocks

end
-- ==== Proof.Payloads.lean ====
import proofs.«427825_j11802570129617_3_alg».proof.Proof.Spec
import proofs.«427825_j11802570129617_3_alg».proof.Proof.Gen.KernelIdeal.Skeleton
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.PayloadAt

open Idealize.ShloMosaic Idealize.ShloMosaic.ValueIdx Cert.KernelIdeal Cert.KernelIdeal.Gen Cert.Dist

/-! ## Layout operations on columns, read at an index -/

/-- A vector `[a]` cast to a column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A minimum over one axis, read at an index -/

/-- At the extended reals a minimum reduction over one axis is the fold of `min` from the accumulator's value over
    that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The sums over one axis, read at an index -/

/-- The row sums of a `[1024, 64]` array, kept as a column and broadcast over 512 columns: at `(r, v)` the sum
    over `k` of the array at `(r, k)`. -/
private theorem rowSum_at (src : FVec Ideal S1024x64 .f32) (r : Fin 1024) (v : Fin 512) :
    broadcastTo S1024x512 (shapeCast S1024x1 (multiReduction (F := Ideal) .add [1] S1024 src 0x00000000#32
        reduces_S1024x64_S1024 (.inl rfl) rfl) shapeCasts_S1024_S1024x1) broadcasts_S1024x1_S1024x512 (ix2 r v)
      = ∑ k : Fin 64, src (ix2 r k) := by
  refine (broadcastTo_a1_ab_apply _ _ r v).trans ?_
  refine (shapeCast_a_a1_apply _ _ r 0).trans ?_
  refine (Ideal.multiReduction_add_single (φ := .f32) src _ reduces_S1024x64_S1024 _ _ (ix1 r)).trans ?_
  refine Finset.sum_congr rfl fun k _ => congrArg src ?_
  funext a; refine Fin.ext ?_
  match a with
  | ⟨0, _⟩ => rfl
  | ⟨1, _⟩ => rfl

/-! ## The product's operand indices, axis by axis -/

private theorem lhs_dot_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide),
    dif_pos (show (0 : Fin S1024x64.rank) ∈ dot_S1024x64_S64x512_S1024x512_1_0_0_1_n_n.lhsNonContracting by decide)]
  rfl

private theorem lhs_dot_1 (i : S1024x512.Idx) (q : dot_S1024x64_S64x512_S1024x512_1_0_0_1_n_n.contr.Idx) :
    (dot_S1024x64_S64x512_S1024x512_1_0_0_1_n_n.lhsIdx i q 1).val = (q ⟨0, by decide⟩).val :=
  dot_S1024x64_S64x512_S1024x512_1_0_0_1_n_n.lhsIdx_val_of_single rfl i q

private theorem rhs_dot_0 (i : S1024x512.Idx) (q : dot_S1024x64_S64x512_S1024x512_1_0_0_1_n_n.contr.Idx) :
    (dot_S1024x64_S64x512_S1024x512_1_0_0_1_n_n.rhsIdx i q 0).val = (q ⟨0, by decide⟩).val :=
  dot_S1024x64_S64x512_S1024x512_1_0_0_1_n_n.rhsIdx_val_of_single rfl i q

private theorem rhs_dot_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide),
    dif_pos (show (1 : Fin S64x512.rank) ∈ dot_S1024x64_S64x512_S1024x512_1_0_0_1_n_n.rhsNonContracting by decide)]
  rfl

/-- The product into the zero constant, at `(r, v)`: the sum over `k` of the left operand at `(r, k)` times the
    right operand at `(k, v)`. -/
private theorem matmul_at (l : FVec Ideal S1024x64 .bf16) (m : FVec Ideal S64x512 .bf16) (r : Fin 1024) (v : Fin 512) :
    matmul dot_S1024x64_S64x512_S1024x512_1_0_0_1_n_n none l m (constant (F := Ideal) S1024x512 .f32 0x00000000#32) (ix2 r v)
      = ∑ k : Fin 64, l (ix2 r k) * m (ix2 k v) := by
  refine (Ideal.matmul_constant_zero_apply dot_S1024x64_S64x512_S1024x512_1_0_0_1_n_n none l m (ix2 r v)).trans ?_
  rw [← Equiv.sum_comp (ValueIdx.contrEquiv1 dot_S1024x64_S64x512_S1024x512_1_0_0_1_n_n 64 rfl rfl).symm]
  refine Finset.sum_congr rfl fun k _ => ?_
  have hk := ValueIdx.contrEquiv1_symm_val dot_S1024x64_S64x512_S1024x512_1_0_0_1_n_n 64 rfl rfl k
  have el : dot_S1024x64_S64x512_S1024x512_1_0_0_1_n_n.lhsIdx (ix2 r v) ((ValueIdx.contrEquiv1 dot_S1024x64_S64x512_S1024x512_1_0_0_1_n_n 64 rfl rfl).symm k) = ix2 r k :=
    funext fun a => Fin.ext (by
      match a with
      | ⟨0, _⟩ => exact lhs_dot_0 _ _
      | ⟨1, _⟩ => exact (lhs_dot_1 _ _).trans hk)
  have er : dot_S1024x64_S64x512_S1024x512_1_0_0_1_n_n.rhsIdx (ix2 r v) ((ValueIdx.contrEquiv1 dot_S1024x64_S64x512_S1024x512_1_0_0_1_n_n 64 rfl rfl).symm k) = ix2 k v :=
    funext fun a => Fin.ext (by
      match a with
      | ⟨0, _⟩ => exact (rhs_dot_0 _ _).trans hk
      | ⟨1, _⟩ => exact rhs_dot_1 _ _)
  rw [el, er]

/-- One tile's distances: entry (r, v) from the tile's rows x0, the transposed table x1 and the squared norms x2. -/
theorem pay4_at (x0 : Vec Ideal S1024x64 .f32) (x1 : Vec Ideal S64x512 .bf16) (x2 : Vec Ideal S1x512 .f32)
    (r : Fin 1024) (v : Fin 512) :
    k0_pay4 (F := Ideal) x0 x1 x2 (ix2 r v)
      = Ideal.sqrt (max (((∑ k : Fin 64, x0 (ix2 r k) * x0 (ix2 r k)) + x2 (ix2 0 v))
          - twoW * ∑ k : Fin 64, x0 (ix2 r k) * x1 (ix2 k v)) zeroW) := by
  unfold k0_pay4
  have e1 := rowSum_at (mulf (F := Ideal) (φ := .f32) x0 x0) r v
  have e2 : broadcastTo S1024x512 (shapeCast S1x512 x2 shapeCasts_S1x512_S1x512) broadcasts_S1x512_S1024x512 (ix2 r v)
      = x2 (ix2 0 v) := by
    rw [shapeCast_self]
    exact broadcastTo_1b_ab_apply x2 _ r v
  have e3 : matmul (F := Ideal) (φ₁ := .bf16) (φ₂ := .bf16) dot_S1024x64_S64x512_S1024x512_1_0_0_1_n_n none
      (truncf (F := Ideal) (φ := .f32) .bf16 x0 bitsLt_bf16_f32)
      (shapeCast S64x512 (x1 : FVec Ideal S64x512 .bf16) shapeCasts_S64x512_S64x512)
      (constant (F := Ideal) S1024x512 .f32 0x00000000#32) (ix2 r v)
      = ∑ k : Fin 64, x0 (ix2 r k) * x1 (ix2 k v) := by
    rw [shapeCast_self]
    exact matmul_at _ _ r v
  exact congrArg Ideal.sqrt (congrArg₂ max (congrArg₂ (· - ·) (congrArg₂ (· + ·) e1 e2) (congrArg (twoW * ·) e3)) rfl)

/-- The column-minimum accumulator after a tile: the old value against the tile's column minimum. -/
theorem pay5_at (x0 : Vec Ideal S1024x64 .f32) (x1 : Vec Ideal S64x512 .bf16) (x2 : Vec Ideal S1x512 .f32)
    (xo : Vec Ideal S1x1x512 .f32) (v : Fin 512) :
    k0_pay5 (F := Ideal) x0 x1 x2 xo (ix3 0 0 v)
      = min (xo (ix3 0 0 v)) ((Finset.univ : Finset (Fin 1024)).fold min infW
          (fun r => k0_pay4 (F := Ideal) x0 x1 x2 (ix2 r v))) := by
  unfold k0_pay5
  refine (shapeCast_ab_1ab_apply _ _ 0 0 v).trans ?_
  refine congrArg₂ min (shapeCast_1ab_ab_apply xo _ 0 v) ?_
  refine (shapeCast_a_1a_apply _ _ 0 v).trans ?_
  refine (multiReduction_minimumf_single (φ := .f32) (k0_pay4 (F := Ideal) x0 x1 x2) _ reduces_S1024x512_S512 _ _
    (ix1 v)).trans ?_
  refine congrArg (fun f => (Finset.univ : Finset (Fin 1024)).fold min infW f)
    (funext fun r => congrArg (k0_pay4 (F := Ideal) x0 x1 x2) ?_)
  funext a; refine Fin.ext ?_
  match a with
  | ⟨0, _⟩ => rfl
  | ⟨1, _⟩ => rfl

/-- A tile's row minima. -/
theorem pay6_at (x0 : Vec Ideal S1024x64 .f32) (x1 : Vec Ideal S64x512 .bf16) (x2 : Vec Ideal S1x512 .f32)
    (r : Fin 1024) :
    k0_pay6 (F := Ideal) x0 x1 x2 (ix2 r 0)
      = (Finset.univ : Finset (Fin 512)).fold min infW (fun v => k0_pay4 (F := Ideal) x0 x1 x2 (ix2 r v)) := by
  unfold k0_pay6
  refine (shapeCast_a_a1_apply _ _ r 0).trans ?_
  refine (multiReduction_minimumf_single (φ := .f32) (k0_pay4 (F := Ideal) x0 x1 x2) _ reduces_S1024x512_S1024 _ _
    (ix1 r)).trans ?_
  refine congrArg (fun f => (Finset.univ : Finset (Fin 512)).fold min infW f)
    (funext fun v => congrArg (k0_pay4 (F := Ideal) x0 x1 x2) ?_)
  funext a; refine Fin.ext ?_
  match a with
  | ⟨0, _⟩ => rfl
  | ⟨1, _⟩ => rfl

/-- The row-minimum sum accumulator after a tile: the old value plus the sum of the tile's row minima. -/
theorem pay1_at (y : FVec Ideal S1024x1 .f32) (xo : Vec Ideal S1x1x1 .f32) :
    k0_pay1 (F := Ideal) y xo (ix3 0 0 0) = xo (ix3 0 0 0) + ∑ r : Fin 1024, y (ix2 r 0) := by
  unfold k0_pay1
  refine (shapeCast_ab_1ab_apply _ _ 0 0 0).trans ?_
  refine congrArg₂ (· + ·) (shapeCast_1ab_ab_apply xo _ 0 0) ?_
  refine (shapeCast_a_1a_apply _ _ 0 0).trans ?_
  refine (Ideal.multiReduction_add_single (φ := .f32) y _ reduces_S1024x1_S1 _ _ (ix1 0)).trans ?_
  refine Finset.sum_congr rfl fun k _ => congrArg y ?_
  funext a; refine Fin.ext ?_
  match a with
  | ⟨0, _⟩ => rfl
  | ⟨1, _⟩ => rfl

/-- The two reset values. -/
theorem pay2_at (i : S1x1x512.Idx) : k0_pay2 (F := Ideal) i = infW := rfl
theorem pay3_at (i : S1x1x1.Idx) : k0_pay3 (F := Ideal) i = zeroW := rfl

end Cert.KernelIdeal.PayloadAt

end
-- ==== Proof.DistAlgebra.lean ====
import proofs.«427825_j11802570129617_3_alg».proof.Proof.Spec

noncomputable section

namespace Cert.Dist

open Idealize.ShloMosaic Idealize.ShloMosaic.ValueIdx

/-- The word 0x39000000 is 2⁻¹³ = 1/8192 exactly. -/
theorem ofBits_inv8192 : Ideal.ofBits .f32 0x39000000#32 = ((1 / 8192 : ℝ) : EReal) := by
  simp [Ideal.ofBits, Ideal.ieee, -EReal.coe_mul]; norm_num
/-- The word 0x46000000 is 8192. -/
theorem ofBits_8192 : Ideal.ofBits .f32 0x46000000#32 = ((8192 : ℝ) : EReal) := by
  simp [Ideal.ofBits, Ideal.ieee, -EReal.coe_mul]; norm_num
/-- The three words of the specification: 0, +∞ and 2. -/
theorem zeroW_eq : zeroW = 0 := by simp [zeroW, Ideal.ofBits, Ideal.ieee]
theorem infW_eq : infW = ⊤ := by simp [infW, Ideal.ofBits, Ideal.ieee]
theorem twoW_eq : twoW = ((2 : ℝ) : EReal) := by
  simp [twoW, Ideal.ofBits, Ideal.ieee, -EReal.coe_mul]; norm_num

/-- Multiplying by 2⁻¹³ is dividing by 8192, on every extended real. -/
theorem mul_inv8192_eq_div (y : EReal) :
    y * Ideal.ofBits .f32 0x39000000#32 = Ideal.div y (Ideal.ofBits .f32 0x46000000#32) := by
  rw [ofBits_inv8192, ofBits_8192, Ideal.div_coe (by norm_num)]

/-- The coercion of a finite real sum is the sum of the coercions. -/
private theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On real entries the expanded form is the sum of squared differences: ∑a² + ∑b² − 2∑ab = ∑(a−b)² ≥ 0. -/
theorem kdist_eq_dist (x : XS.Idx → EReal) (p : PS.Idx → EReal) (hx : ∀ i, IsReal (x i)) (hp : ∀ i, IsReal (p i))
    (R : Fin 8192) (v : Fin 512) : kdist x p R v = dist x p R v := by
  choose a ha using fun k : Fin 64 => hx (ix2 R k)
  choose b hb using fun k : Fin 64 => hp (ix2 v k)
  have hnn : (0 : ℝ) ≤ ∑ k : Fin 64, (a k - b k) * (a k - b k) :=
    Finset.sum_nonneg fun k _ => mul_self_nonneg _
  have hid : (∑ k : Fin 64, a k * a k) + (0 + ∑ k : Fin 64, b k * b k) - 2 * ∑ k : Fin 64, a k * b k
      = 0 + ∑ k : Fin 64, (a k - b k) * (a k - b k) := by
    rw [Finset.mul_sum, zero_add, zero_add, ← Finset.sum_add_distrib, ← Finset.sum_sub_distrib]
    exact Finset.sum_congr rfl fun k _ => by ring
  unfold kdist dist
  rw [zeroW_eq, twoW_eq]
  simp only [ha, hb]
  simp only [← EReal.coe_mul, ← EReal.coe_sub, ← coe_sum, ← EReal.coe_zero, ← EReal.coe_add]
  rw [hid, max_eq_left (by exact_mod_cast (by simpa using hnn))]

end Cert.Dist

end
-- ==== Proof.Values.lean ====
/-
  The three buffers after each tile, entry by entry, at the extended reals: a tile's entry is the distance
  between its row of x and a row of p (for real inputs); the column-minimum accumulator is the running
  minimum of the tiles' column minima; the sum accumulator is the running sum of the tiles' sums of row minima.
-/
import proofs.«427825_j11802570129617_3_alg».proof.Proof.Blocks
import proofs.«427825_j11802570129617_3_alg».proof.Proof.Payloads
import proofs.«427825_j11802570129617_3_alg».proof.Proof.DistAlgebra

noncomputable section

namespace Cert.KernelIdeal.Values

open Idealize.ShloMosaic Idealize.ShloMosaic.TcCoe Idealize.SL.Sem Idealize.ShloMosaic.ValueIdx
open Cert.KernelIdeal Cert.KernelIdeal.Gen Cert.KernelIdeal.Accum Cert.KernelIdeal.Blocks Cert.KernelIdeal.PayloadAt Cert.Dist

variable (m : (ℓ : Loc nD τ sig) → Buf (Elt Ideal) ℓ)

/-- A tile's entry (r, v) is the distance between row 1024·t + r of x and row v of p, when the inputs are real. -/
theorem tile_at (c : Dev nD) (hx : ∀ i, IsReal (xarg m c i)) (hp : ∀ i, IsReal (parg m c i))
    (t : Fin cfg0.N) (r : Fin 1024) (v : Fin 512) :
    tile m c t (ix2 r v) = dist (xarg m c) (parg m c) (row (tl t) r) v := by
  unfold tile
  rw [pay4_at]
  simp only [xblk_at, ptblk_at, psqblk_at]
  exact kdist_eq_dist (xarg m c) (parg m c) hx hp (row (tl t) r) v

/-- Tile t's minimum of column v, and of row r. -/
def tileColMin (c : Dev nD) (t : Fin cfg0.N) (v : Fin 512) : EReal :=
  (Finset.univ : Finset (Fin 1024)).fold min infW (fun r => tile m c t (ix2 r v))
def tileRowMin (c : Dev nD) (t : Fin cfg0.N) (r : Fin 1024) : EReal :=
  (Finset.univ : Finset (Fin 512)).fold min infW (fun v => tile m c t (ix2 r v))

/-- The column-minimum accumulator after tile n, at column v: the running minimum of the tiles' column minima. -/
theorem colAcc_at (c : Dev nD) (v : Fin 512) : ∀ (n : ℕ) (h : n < cfg0.N),
    colAcc m c n h (ix3 0 0 v) = runMin (fun t : Fin 8 => tileColMin m c (t.cast N_0.symm) v) n (lt_of_lt_of_eq h N_0)
  | 0, h => by
    simp only [colAcc, runMin]
    rw [pay5_at, pay2_at]
    rfl
  | n + 1, h => by
    by_cases h0 : (n + 1) % 4 = 0
    · simp only [colAcc, runMin, if_pos h0]
      rw [pay5_at, pay2_at]
      rfl
    · simp only [colAcc, runMin, if_neg h0]
      rw [pay5_at, colAcc_at c v n]
      rfl

/-- The sum accumulator after tile n: the running sum of the tiles' sums of row minima. -/
theorem sumAcc_at (c : Dev nD) : ∀ (n : ℕ) (h : n < cfg0.N),
    sumAcc m c n h (ix3 0 0 0)
      = runSum (fun t : Fin 8 => ∑ r : Fin 1024, tileRowMin m c (t.cast N_0.symm) r) n (lt_of_lt_of_eq h N_0)
  | 0, h => by
    simp only [sumAcc, runSum]
    rw [pay1_at, pay3_at]
    simp only [pay6_at]
    rfl
  | n + 1, h => by
    by_cases h0 : (n + 1) % 4 = 0
    · simp only [sumAcc, runSum, if_pos h0]
      rw [pay1_at, pay3_at]
      simp only [pay6_at]
      rfl
    · simp only [sumAcc, runSum, if_neg h0]
      rw [pay1_at, sumAcc_at c n]
      simp only [pay6_at]
      rfl

end Cert.KernelIdeal.Values

end
-- ==== Proof.Arrays.lean ====
/-
  The three result arrays of the kernel region after the run. The distance array's blocks tile it, one per
  tile; the two accumulator arrays have one block per group of four tiles, written back after the group's
  last tile.
-/
import proofs.«427825_j11802570129617_3_alg».proof.Proof.Values
import Idealize.ShloMosaic.Lib.Pipeline.Value

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.KernelIdeal.Blocks Cert.KernelIdeal.Values Cert.Dist

variable (m : (ℓ : Loc nD τ sig) → Buf (Elt Ideal) ℓ)

/-- The block indices of the three output windows at tile t: the distance window moves with the tile, the
    accumulator windows with the group. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, win0_5.index t (0 : Fin 3) = t.val / 4 ∧ win0_5.index t (1 : Fin 3) = 0 ∧ win0_5.index t (2 : Fin 3) = 0)

theorem runMin_congr (g : Fin 8 → EReal) (n n' : ℕ) (h : n < 8) (h' : n' < 8) (e : n = n') : runMin g n h = runMin g n' h' := by
  subst e; rfl
theorem runSum_congr (g : Fin 8 → EReal) (n n' : ℕ) (h : n < 8) (h' : n' < 8) (e : n = n') : runSum g n h = runSum g n' h' := by
  subst e; rfl

/-! ## The distance array -/

/-- The distance table. -/
def distArr (c : Dev nD) : Buf (Elt Ideal) ((c : Thread nD τ).loc main_v6_0) :=
  fun (i : S8192x512.Idx) => dist (xarg m c) (parg m c) (i 0) (i 1)

/-- What tile t writes back is block t of the distance table. -/
theorem flushed3_eq (c : Dev nD) (hx : ∀ i, IsReal (xarg m c i)) (hp : ∀ i, IsReal (parg m c i)) (t : Fin cfg0.N) :
    (dats m 0 c).flushed 3 t = ((cfg0.win 3).blk t).view.read (Elt Ideal) (distArr m c) := by
  show (cfg0.win 3).cut (grid0.coords t) ((dats m 0 c).after 3 t) = _
  rw [after0_3, outsAt_eq]
  obtain ⟨e0, e1⟩ := idx3 t
  funext j
  obtain ⟨r, v, rfl⟩ : ∃ (r : Fin 1024) (v : Fin 512), j = ix2 r v := ⟨j 0, j 1, eq_ix2 j⟩
  show tile m c t (ix2 r v) = distArr m c (((cfg0.win 3).blk t).view.emb (ix2 r v))
  rw [tile_at m c hx hp]
  unfold distArr
  congr 1
  · apply Fin.ext
    show 1024 * t.val + r.val = win0_3.index t (0 : Fin 2) * 1024 + 1 * r.val
    rw [e0]; omega
  · apply Fin.ext
    show v.val = win0_3.index t (1 : Fin 2) * 512 + 1 * v.val
    rw [e1]; omega

theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v6_0).slice (win0_3.rect t)).set ↔ _
  rw [View.set_slice_whole, Rect.mem_set_unit]
  exact Iff.rfl

/-- The distance array ends at the distance table: row R lies in tile R / 1024. -/
theorem final3 (c : Dev nD) (hx : ∀ i, IsReal (xarg m c i)) (hp : ∀ i, IsReal (parg m c i)) :
    (dats m 0 c).arrAt 3 cfg0.N = distArr m c :=
  (dats m 0 c).arrAt_eq_of_cover 3 (distArr m c) (fun t _ => flushed3_eq m c hx hp t) fun i => by
    have h0 : (i 0).val < 8192 := (i 0).isLt
    have h1 : (i 1).val < 512 := (i 1).isLt
    refine ⟨⟨(i 0).val / 1024, by show _ < grid0.N; rw [N_0]; omega⟩, flush0_3 _, ?_⟩
    rw [mem_blk3]
    obtain ⟨e0, e1⟩ := idx3 ⟨(i 0).val / 1024, by show _ < grid0.N; rw [N_0]; omega⟩
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 512 ≤ (i 1).val ∧ (i 1).val < win0_3.index _ (1 : Fin 2) * 512 + 512
      rw [e1]; omega

/-! ## The column-minimum array -/

/-- Group c's column minima: the running minimum after the group's last tile. -/
def colMinArr (c : Dev nD) : Buf (Elt Ideal) ((c : Thread nD τ).loc main_v6_1) :=
  fun (i : S2x1x512.Idx) => runMin (fun t : Fin 8 => tileColMin m c (t.cast N_0.symm) (i 2)) (lastOf (i 0)).val (lastOf (i 0)).isLt

theorem flushed4_eq (c : Dev nD) (t : Fin cfg0.N) (hf : (cfg0.win 4).flush t = true) :
    (dats m 0 c).flushed 4 t = ((cfg0.win 4).blk t).view.read (Elt Ideal) (colMinArr m c) := by
  have h3 : t.val % 4 = 3 := (flush0_4 t).mp hf
  have hN : t.val < 8 := lt_of_lt_of_eq t.isLt N_0
  show (cfg0.win 4).cut (grid0.coords t) ((dats m 0 c).after 4 t) = _
  rw [after0_4, outsAt_eq]
  obtain ⟨e0, e1, e2⟩ := idx4 t
  funext j
  obtain ⟨a, b, v, rfl⟩ : ∃ (a : Fin 1) (b : Fin 1) (v : Fin 512), j = ix3 a b v := ⟨j 0, j 1, j 2, eq_ix3 j⟩
  obtain rfl : a = 0 := Subsingleton.elim _ _
  obtain rfl : b = 0 := Subsingleton.elim _ _
  show colAcc m c t.val t.isLt (ix3 0 0 v) = colMinArr m c (((cfg0.win 4).blk t).view.emb (ix3 0 0 v))
  rw [colAcc_at]
  have hemb : ((cfg0.win 4).blk t).view.emb (ix3 (0 : Fin 1) (0 : Fin 1) v) = (ix3 (⟨t.val / 4, by omega⟩ : Fin 2) (0 : Fin 1) v : S2x1x512.Idx) := by
    funext a; apply Fin.ext
    match a with
    | ⟨0, _⟩ => show win0_4.index t (0 : Fin 3) * 1 + 1 * 0 = t.val / 4; rw [e0]; omega
    | ⟨1, _⟩ => show win0_4.index t (1 : Fin 3) * 1 + 1 * 0 = 0; rw [e1]
    | ⟨2, _⟩ => show win0_4.index t (2 : Fin 3) * 512 + 1 * v.val = v.val; rw [e2]; omega
  rw [hemb]
  unfold colMinArr
  exact runMin_congr _ _ _ _ _ (by show t.val = 4 * (t.val / 4) + 3; omega)

theorem mem_blk4 (t : Fin cfg0.N) (i : S2x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v6_1).slice (win0_4.rect t)).set ↔ _
  rw [View.set_slice_whole, Rect.mem_set_unit]
  exact Iff.rfl

/-- The column-minimum array ends at the two groups' column minima: group c is written back after tile 4c + 3. -/
theorem final4 (c : Dev nD) : (dats m 0 c).arrAt 4 cfg0.N = colMinArr m c :=
  (dats m 0 c).arrAt_eq_of_cover 4 (colMinArr m c) (fun t hf => flushed4_eq m c t hf) fun i => by
    have h0 : (i 0).val < 2 := (i 0).isLt
    have h1 : (i 1).val < 1 := (i 1).isLt
    have h2 : (i 2).val < 512 := (i 2).isLt
    have ht : 4 * (i 0).val + 3 < grid0.N := by rw [N_0]; omega
    refine ⟨⟨4 * (i 0).val + 3, ht⟩, (flush0_4 _).mpr (by dsimp only; omega), ?_⟩
    rw [mem_blk4]
    obtain ⟨e0, e1, e2⟩ := idx4 ⟨4 * (i 0).val + 3, ht⟩
    intro a
    match a with
    | ⟨0, _⟩ =>
      show win0_4.index _ (0 : Fin 3) * 1 ≤ (i 0).val ∧ (i 0).val < win0_4.index _ (0 : Fin 3) * 1 + 1
      rw [e0]; dsimp only; omega
    | ⟨1, _⟩ =>
      show win0_4.index _ (1 : Fin 3) * 1 ≤ (i 1).val ∧ (i 1).val < win0_4.index _ (1 : Fin 3) * 1 + 1
      rw [e1]; omega
    | ⟨2, _⟩ =>
      show win0_4.index _ (2 : Fin 3) * 512 ≤ (i 2).val ∧ (i 2).val < win0_4.index _ (2 : Fin 3) * 512 + 512
      rw [e2]; omega

/-! ## The row-minimum-sum array -/

/-- Group c's sum of row minima: the running sum after the group's last tile. -/
def rowSumArr (c : Dev nD) : Buf (Elt Ideal) ((c : Thread nD τ).loc main_v6_2) :=
  fun (i : S2x1x1.Idx) => runSum (fun t : Fin 8 => ∑ r : Fin 1024, tileRowMin m c (t.cast N_0.symm) r) (lastOf (i 0)).val (lastOf (i 0)).isLt

theorem flushed5_eq (c : Dev nD) (t : Fin cfg0.N) (hf : (cfg0.win 5).flush t = true) :
    (dats m 0 c).flushed 5 t = ((cfg0.win 5).blk t).view.read (Elt Ideal) (rowSumArr m c) := by
  have h3 : t.val % 4 = 3 := (flush0_5 t).mp hf
  have hN : t.val < 8 := lt_of_lt_of_eq t.isLt N_0
  show (cfg0.win 5).cut (grid0.coords t) ((dats m 0 c).after 5 t) = _
  rw [after0_5, outsAt_eq]
  obtain ⟨e0, e1, e2⟩ := idx5 t
  funext j
  obtain ⟨a, b, d, rfl⟩ : ∃ (a : Fin 1) (b : Fin 1) (d : Fin 1), j = ix3 a b d := ⟨j 0, j 1, j 2, eq_ix3 j⟩
  obtain rfl : a = 0 := Subsingleton.elim _ _
  obtain rfl : b = 0 := Subsingleton.elim _ _
  obtain rfl : d = 0 := Subsingleton.elim _ _
  show sumAcc m c t.val t.isLt (ix3 0 0 0) = rowSumArr m c (((cfg0.win 5).blk t).view.emb (ix3 0 0 0))
  rw [sumAcc_at]
  have hemb : ((cfg0.win 5).blk t).view.emb (ix3 (0 : Fin 1) (0 : Fin 1) (0 : Fin 1)) = (ix3 (⟨t.val / 4, by omega⟩ : Fin 2) (0 : Fin 1) (0 : Fin 1) : S2x1x1.Idx) := by
    funext a; apply Fin.ext
    match a with
    | ⟨0, _⟩ => show win0_5.index t (0 : Fin 3) * 1 + 1 * 0 = t.val / 4; rw [e0]; omega
    | ⟨1, _⟩ => show win0_5.index t (1 : Fin 3) * 1 + 1 * 0 = 0; rw [e1]
    | ⟨2, _⟩ => show win0_5.index t (2 : Fin 3) * 1 + 1 * 0 = 0; rw [e2]
  rw [hemb]
  unfold rowSumArr
  exact runSum_congr _ _ _ _ _ (by show t.val = 4 * (t.val / 4) + 3; omega)

theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v6_2).slice (win0_5.rect t)).set ↔ _
  rw [View.set_slice_whole, Rect.mem_set_unit]
  exact Iff.rfl

/-- The sum array ends at the two groups' sums: group c is written back after tile 4c + 3. -/
theorem final5 (c : Dev nD) : (dats m 0 c).arrAt 5 cfg0.N = rowSumArr m c :=
  (dats m 0 c).arrAt_eq_of_cover 5 (rowSumArr m c) (fun t hf => flushed5_eq m c t hf) fun i => by
    have h0 : (i 0).val < 2 := (i 0).isLt
    have h1 : (i 1).val < 1 := (i 1).isLt
    have h2 : (i 2).val < 1 := (i 2).isLt
    have ht : 4 * (i 0).val + 3 < grid0.N := by rw [N_0]; omega
    refine ⟨⟨4 * (i 0).val + 3, ht⟩, (flush0_5 _).mpr (by dsimp only; omega), ?_⟩
    rw [mem_blk5]
    obtain ⟨e0, e1, e2⟩ := idx5 ⟨4 * (i 0).val + 3, ht⟩
    intro a
    match a with
    | ⟨0, _⟩ =>
      show win0_5.index _ (0 : Fin 3) * 1 ≤ (i 0).val ∧ (i 0).val < win0_5.index _ (0 : Fin 3) * 1 + 1
      rw [e0]; dsimp only; omega
    | ⟨1, _⟩ =>
      show win0_5.index _ (1 : Fin 3) * 1 ≤ (i 1).val ∧ (i 1).val < win0_5.index _ (1 : Fin 3) * 1 + 1
      rw [e1]; omega
    | ⟨2, _⟩ =>
      show win0_5.index _ (2 : Fin 3) * 1 ≤ (i 2).val ∧ (i 2).val < win0_5.index _ (2 : Fin 3) * 1 + 1
      rw [e2]; omega

end Cert.KernelIdeal.Arrays

end
-- ==== Proof.Regroup.lean ====
import proofs.«427825_j11802570129617_3_alg».proof.Proof.Spec

noncomputable section

namespace Cert.Dist

open Idealize.ShloMosaic Idealize.ShloMosaic.ValueIdx

/-- The word +∞ is the top element of the extended reals. -/
private theorem infW_eq : infW = (⊤ : EReal) := by simp [Ideal.ofBits, Ideal.ieee]

/-- The word +0 is zero. -/
private theorem zeroW_eq : zeroW = (0 : EReal) := Ideal.ofBits_zero_f32

/-- Every row of the table is row R % 1024 of tile R / 1024. -/
private theorem row_surj (R : Fin 8192) : ∃ t r, row t r = R :=
  ⟨⟨R.val / 1024, by have := R.isLt; omega⟩, ⟨R.val % 1024, Nat.mod_lt _ (by norm_num)⟩,
    Fin.ext (by simp only [row]; omega)⟩

/-- The running minimum at the last tile of the first group is the four-fold minimum over tiles 0..3. -/
private theorem runMin_last0 (g : Fin 8 → EReal) :
    runMin g (lastOf 0).val (lastOf 0).isLt = min (min (min (min infW (g 0)) (g 1)) (g 2)) (g 3) := rfl

/-- The running minimum at the last tile of the second group is the four-fold minimum over tiles 4..7. -/
private theorem runMin_last1 (g : Fin 8 → EReal) :
    runMin g (lastOf 1).val (lastOf 1).isLt = min (min (min (min infW (g 4)) (g 5)) (g 6)) (g 7) := rfl

/-- The running sum at the last tile of the first group is the four-fold sum over tiles 0..3. -/
private theorem runSum_last0 (g : Fin 8 → EReal) :
    runSum g (lastOf 0).val (lastOf 0).isLt = zeroW + g 0 + g 1 + g 2 + g 3 := rfl

/-- The running sum at the last tile of the second group is the four-fold sum over tiles 4..7. -/
private theorem runSum_last1 (g : Fin 8 → EReal) :
    runSum g (lastOf 1).val (lastOf 1).isLt = zeroW + g 4 + g 5 + g 6 + g 7 := rfl

/-- A statement about all eight tiles, tile by tile, grouped as the two four-fold minima group them. -/
private theorem forall_fin8 (P : Fin 8 → Prop) :
    (∀ t, P t) ↔ ((((P 0 ∧ P 1) ∧ P 2) ∧ P 3) ∧ (((P 4 ∧ P 5) ∧ P 6) ∧ P 7)) := by
  constructor
  · intro h
    exact ⟨⟨⟨⟨h 0, h 1⟩, h 2⟩, h 3⟩, ⟨⟨h 4, h 5⟩, h 6⟩, h 7⟩
  · rintro ⟨⟨⟨⟨h0, h1⟩, h2⟩, h3⟩, ⟨⟨h4, h5⟩, h6⟩, h7⟩ t
    fin_cases t <;> assumption

/-- The minimum over all 8192 rows is the minimum over the two groups of the running minimum over each group's
    four tiles of the tile minima. -/
theorem min_regroup (f : Fin 8192 → EReal) (g : Fin 8 → EReal)
    (hg : ∀ t, g t = (Finset.univ : Finset (Fin 1024)).fold min infW (fun r => f (row t r))) :
    (Finset.univ : Finset (Fin 2)).fold min infW (fun c => runMin g (lastOf c).val (lastOf c).isLt)
      = (Finset.univ : Finset (Fin 8192)).fold min infW f := by
  -- both sides have the same lower bounds: c is below either one exactly when c is below every f (row t r)
  refine eq_of_forall_le_iff fun c => ?_
  have hgc : ∀ t, c ≤ g t ↔ ∀ r, c ≤ f (row t r) := by
    intro t
    rw [hg t, Finset.le_fold_min]
    simp [infW_eq]
  have hall : (∀ R, c ≤ f R) ↔ ∀ t r, c ≤ f (row t r) := by
    constructor
    · intro h t r
      exact h _
    · intro h R
      obtain ⟨t, r, rfl⟩ := row_surj R
      exact h t r
  rw [Finset.le_fold_min, Finset.le_fold_min]
  simp only [Finset.mem_univ, forall_true_left, Fin.forall_fin_two, runMin_last0, runMin_last1, le_min_iff, hgc,
    infW_eq, le_top, true_and, hall]
  rw [forall_fin8 (fun t => ∀ r, c ≤ f (row t r))]

/-- The table's rows are the pairs (tile, row within the tile). -/
private def rowEquiv : Fin 8 × Fin 1024 ≃ Fin 8192 where
  toFun p := row p.1 p.2
  invFun R := (⟨R.val / 1024, by have := R.isLt; omega⟩, ⟨R.val % 1024, Nat.mod_lt _ (by norm_num)⟩)
  left_inv p := by
    rcases p with ⟨t, r⟩
    have ht := t.isLt
    have hr := r.isLt
    refine Prod.ext (Fin.ext ?_) (Fin.ext ?_)
    · simp only [row]; omega
    · simp only [row]; omega
  right_inv R := Fin.ext (by simp only [row]; omega)

/-- The sum over all 8192 rows is the sum over the two groups of the running sum over each group's four tiles
    of the tile sums. -/
theorem sum_regroup (f : Fin 8192 → EReal) (g : Fin 8 → EReal)
    (hg : ∀ t, g t = ∑ r : Fin 1024, f (row t r)) :
    zeroW + ∑ c : Fin 2, runSum g (lastOf c).val (lastOf c).isLt = zeroW + ∑ R : Fin 8192, f R := by
  -- the sum over all rows is the sum over the tiles of the tile sums
  have hsum : ∑ R : Fin 8192, f R = ∑ t : Fin 8, g t := by
    rw [← Equiv.sum_comp rowEquiv f, Fintype.sum_prod_type]
    refine Finset.sum_congr rfl fun t _ => ?_
    rw [hg t]
    rfl
  rw [hsum, Fin.sum_univ_two, runSum_last0, runSum_last1, Fin.sum_univ_eight]
  simp only [zeroW_eq, zero_add, add_assoc]

/-- A rank-1 index set is its coordinate range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {n : Nat} (f : (⟨1, ![n]⟩ : Shape).Idx → EReal) : ∑ j, f j = ∑ a : Fin n, f (ix1 a) := by
  rw [← Equiv.sum_comp (idxEquiv1 (n := n)).symm f]
  rfl

end Cert.Dist

end
-- ==== Proof.RefRead.lean ====
/-
  The reference's three results read from its stages: the distance table entry by entry, the column and row
  minima as folds of min from +∞ over an axis, the two means as (0 + sum) divided by the count.
-/
import proofs.«427825_j11802570129617_3_alg».proof.Proof.Gen.ReferenceIdeal.Read
import proofs.«427825_j11802570129617_3_alg».proof.Proof.Spec
import proofs.«427825_j11802570129617_3_alg».proof.Proof.Regroup

noncomputable section

namespace Cert.ReferenceIdeal.RefRead

open Idealize.ShloMosaic Idealize.ShloMosaic.ValueIdx
open Cert.ReferenceIdeal Cert.ReferenceIdeal.Gen Cert.ReferenceIdeal.Read Cert.Dist

variable (x : XS.Idx → EReal) (p : PS.Idx → EReal)

theorem idx_x (R : Fin 8192) (v : Fin 512) (k : Fin 64) :
    idx_main_v0 (idx_main_v2 (idx_main_v6 (ix2 R v) k)) = ix2 R k :=
  funext fun a => Fin.ext (by match a with | ⟨0, _⟩ => rfl | ⟨1, _⟩ => rfl)

theorem idx_p (R : Fin 8192) (v : Fin 512) (k : Fin 64) :
    idx_main_v1 (idx_main_v3 (idx_main_v6 (ix2 R v) k)) = ix2 v k :=
  funext fun a => Fin.ext (by match a with | ⟨0, _⟩ => rfl | ⟨1, _⟩ => rfl)

/-- The reference's table entry (R, v) is the distance between row R of x and row v of p. -/
theorem table_at (R : Fin 8192) (v : Fin 512) : val_main_v7 (F := Ideal) x p (ix2 R v) = dist x p R v := by
  rw [val_main_v7_apply, val_main_v6_apply]
  simp only [val_main_v5_apply, val_main_v4_apply, val_main_v2_apply, val_main_v3_apply, val_main_v0_apply,
    val_main_v1_apply, idx_x, idx_p]
  rfl

theorem red0 : S8192x512.Reduces [0] S512 := by decide
theorem red1 : S8192x512.Reduces [1] S8192 := by decide

/-- A min-reduction of a table along its rows, at column v: the fold of min from the initial value over the rows. -/
theorem reduceRows_at (y : S8192x512.Idx → EReal) (init : S_.Idx → EReal) (v : Fin 512) :
    Host.reduce (FloatOps.minimumf (F := Ideal) (φ := .f32)) y init reducesTo_S8192x512_S512_d0 h_S_ (ix1 v)
      = (Finset.univ : Finset (Fin 8192)).fold min (init (Shape.Idx.first h_S_)) (fun R => y (ix2 R v)) := by
  rw [Host.reduce_eq_fold_single (FloatOps.minimumf (F := Ideal) (φ := .f32)) y init reducesTo_S8192x512_S512_d0 red0 h_S_ (ix1 v)]
  refine congrArg (fun f => (Finset.univ : Finset (Fin 8192)).fold min (init (Shape.Idx.first h_S_)) f)
    (funext fun R => congrArg y ?_)
  funext a; refine Fin.ext ?_
  match a with
  | ⟨0, _⟩ => rfl
  | ⟨1, _⟩ => rfl

/-- A min-reduction of a table along its columns, at row R: the fold of min from the initial value over the columns. -/
theorem reduceCols_at (y : S8192x512.Idx → EReal) (init : S_.Idx → EReal) (R : Fin 8192) :
    Host.reduce (FloatOps.minimumf (F := Ideal) (φ := .f32)) y init reducesTo_S8192x512_S8192_d1 h_S_ (ix1 R)
      = (Finset.univ : Finset (Fin 512)).fold min (init (Shape.Idx.first h_S_)) (fun v => y (ix2 R v)) := by
  rw [Host.reduce_eq_fold_single (FloatOps.minimumf (F := Ideal) (φ := .f32)) y init reducesTo_S8192x512_S8192_d1 red1 h_S_ (ix1 R)]
  refine congrArg (fun f => (Finset.univ : Finset (Fin 512)).fold min (init (Shape.Idx.first h_S_)) f)
    (funext fun v => congrArg y ?_)
  funext a; refine Fin.ext ?_
  match a with
  | ⟨0, _⟩ => rfl
  | ⟨1, _⟩ => rfl

/-- The column minimum at v: the fold of min from +∞ over the 8192 rows. -/
theorem colMin_at (v : Fin 512) :
    val_main_v8 (F := Ideal) x p (ix1 v)
      = (Finset.univ : Finset (Fin 8192)).fold min infW (fun R => val_main_v7 (F := Ideal) x p (ix2 R v)) :=
  reduceRows_at (val_main_v7 (F := Ideal) x p) (val_main_cst_0 (F := Ideal)) v

/-- The row minimum at R: the fold of min from +∞ over the 512 columns. -/
theorem rowMin_at (R : Fin 8192) :
    val_main_v11 (F := Ideal) x p (ix1 R)
      = (Finset.univ : Finset (Fin 512)).fold min infW (fun v => val_main_v7 (F := Ideal) x p (ix2 R v)) :=
  reduceCols_at (val_main_v7 (F := Ideal) x p) (val_main_cst_3 (F := Ideal)) R

/-- The sum of the row minima: 0 plus the sum over the 8192 rows. -/
theorem rowMinSum_eq (i : S_.Idx) :
    val_main_v12 (F := Ideal) x p i = zeroW + ∑ R : Fin 8192, val_main_v11 (F := Ideal) x p (ix1 R) := by
  rw [val_main_v12_apply]
  exact congrArg (zeroW + ·) (sum_idx1 (val_main_v11 (F := Ideal) x p))

end Cert.ReferenceIdeal.RefRead

end
-- ==== Proof.Means.lean ====
/-
  The two scalar results. After the kernel region the host takes, of the two groups' column minima, the
  minimum over the groups, sums over the 512 columns and divides by 512; and of the two groups' sums of row
  minima, the sum over the groups times 2⁻¹³. The reference takes the column minima over all 8192 rows, sums and
  divides by 512; and sums the 8192 row minima and divides by 8192. Minima and sums regroup over the tiles.
-/
import proofs.«427825_j11802570129617_3_alg».proof.Proof.Arrays
import proofs.«427825_j11802570129617_3_alg».proof.Proof.RefRead
import proofs.«427825_j11802570129617_3_alg».proof.Proof.Regroup
import proofs.«427825_j11802570129617_3_alg».proof.Proof.DistAlgebra

noncomputable section

namespace Cert.KernelIdeal.Means

open Idealize.ShloMosaic Idealize.ShloMosaic.TcCoe Idealize.SL.Sem Idealize.ShloMosaic.ValueIdx
open Cert.KernelIdeal Cert.KernelIdeal.Gen Cert.KernelIdeal.Accum Cert.KernelIdeal.Blocks Cert.KernelIdeal.Values
open Cert.KernelIdeal.Arrays Cert.Dist

variable (m : (ℓ : Loc nD τ sig) → Buf (Elt Ideal) ℓ)

/-- The host's minimum over the groups of a [2, 1, 512] array of column minima. -/
def groupMin (A : S2x1x512.Idx → EReal) : S512.Idx → EReal :=
  Host.reduce (FloatOps.minimumf (F := Ideal) (φ := .f32)) (shapeCast S2x512 A shapeCasts_S2x1x512_S2x512)
    (constant (F := Ideal) S_ .f32 0x7F800000#32) reducesTo_S2x512_S512_d0 h_S_

/-- The first scalar result from the column-minimum array: the mean over the columns of the minimum over the groups. -/
def colMean (A : S2x1x512.Idx → EReal) : S_.Idx → EReal :=
  Host.divf (Host.reduceAdd (groupMin A) (constant (F := Ideal) S_ .f32 0x00000000#32) reducesTo_S512_S_d0 h_S_)
    (constant (F := Ideal) S_ .f32 0x44000000#32)

/-- The second scalar result from the sum array: the sum over the groups times 2⁻¹³. -/
def rowMean (A : S2x1x1.Idx → EReal) : S_.Idx → EReal :=
  mulf (Host.reduceAdd (shapeCast S2 A shapeCasts_S2x1x1_S2) (constant (F := Ideal) S_ .f32 0x00000000#32)
    reducesTo_S2_S_d0 h_S_) (constant (F := Ideal) S_ .f32 0x39000000#32)

theorem red2 : S2x512.Reduces [0] S512 := by decide

/-- The minimum over the groups at column v. -/
theorem groupMin_at (A : S2x1x512.Idx → EReal) (v : Fin 512) :
    groupMin A (ix1 v) = (Finset.univ : Finset (Fin 2)).fold min infW (fun g => A (ix3 g 0 v)) := by
  unfold groupMin
  rw [Host.reduce_eq_fold_single (FloatOps.minimumf (F := Ideal) (φ := .f32)) _ _ reducesTo_S2x512_S512_d0 red2 h_S_ (ix1 v)]
  refine congrArg (fun f => (Finset.univ : Finset (Fin 2)).fold min infW f) (funext fun g => ?_)
  show shapeCast S2x512 A shapeCasts_S2x1x512_S2x512 (red2.lift (ix1 v) g) = A (ix3 g 0 v)
  refine shapeCast_apply A shapeCasts_S2x1x512_S2x512 _ (ix3 g 0 v) ?_
  rw [Shape.rowMajor_val_three, Shape.rowMajor_val_two]
  show (g.val * 1 + 0) * 512 + v.val = g.val * 512 + v.val
  omega

variable (c : Dev nD)

/-- A tile's column minimum is the minimum of the reference's table over the tile's rows. -/
theorem tileColMin_eq (hx : ∀ i, IsReal (xarg m c i)) (hp : ∀ i, IsReal (parg m c i)) (t : Fin 8) (v : Fin 512) :
    tileColMin m c (t.cast N_0.symm) v
      = (Finset.univ : Finset (Fin 1024)).fold min infW
          (fun r => Cert.ReferenceIdeal.Read.val_main_v7 (F := Ideal) (xarg m c) (parg m c) (ix2 (row t r) v)) := by
  unfold tileColMin
  refine congrArg (fun f => (Finset.univ : Finset (Fin 1024)).fold min infW f) (funext fun r => ?_)
  rw [tile_at m c hx hp, Cert.ReferenceIdeal.RefRead.table_at]
  rfl

/-- A tile's row minimum is the reference's row minimum of that row. -/
theorem tileRowMin_eq (hx : ∀ i, IsReal (xarg m c i)) (hp : ∀ i, IsReal (parg m c i)) (t : Fin 8) (r : Fin 1024) :
    tileRowMin m c (t.cast N_0.symm) r
      = Cert.ReferenceIdeal.Read.val_main_v11 (F := Ideal) (xarg m c) (parg m c) (ix1 (row t r)) := by
  unfold tileRowMin
  rw [Cert.ReferenceIdeal.RefRead.rowMin_at]
  refine congrArg (fun f => (Finset.univ : Finset (Fin 512)).fold min infW f) (funext fun v => ?_)
  rw [tile_at m c hx hp, Cert.ReferenceIdeal.RefRead.table_at]
  rfl

/-- The kernel's minimum over the groups is the reference's column minimum over all rows. -/
theorem groupMin_eq (hx : ∀ i, IsReal (xarg m c i)) (hp : ∀ i, IsReal (parg m c i)) :
    groupMin (colMinArr m c) = Cert.ReferenceIdeal.Read.val_main_v8 (F := Ideal) (xarg m c) (parg m c) := by
  funext j
  obtain ⟨v, rfl⟩ : ∃ v : Fin 512, j = ix1 v := ⟨j 0, eq_ix1 j⟩
  rw [groupMin_at, Cert.ReferenceIdeal.RefRead.colMin_at]
  exact min_regroup (fun R => Cert.ReferenceIdeal.Read.val_main_v7 (F := Ideal) (xarg m c) (parg m c) (ix2 R v))
    (fun t => tileColMin m c (t.cast N_0.symm) v) (fun t => tileColMin_eq m c hx hp t v)

/-- The first scalar results agree. -/
theorem colMean_eq (hx : ∀ i, IsReal (xarg m c i)) (hp : ∀ i, IsReal (parg m c i)) :
    colMean (colMinArr m c) = Cert.ReferenceIdeal.Read.val_main_v10 (F := Ideal) (xarg m c) (parg m c) := by
  unfold colMean
  rw [groupMin_eq m c hx hp]
  rfl

/-- The host's sum over the groups of a [2, 1, 1] array: 0 plus the two entries. -/
theorem groupSum_at (A : S2x1x1.Idx → EReal) (i : S_.Idx) :
    Host.reduceAdd (F := Ideal) (shapeCast S2 A shapeCasts_S2x1x1_S2) (constant (F := Ideal) S_ .f32 0x00000000#32)
      reducesTo_S2_S_d0 h_S_ i = zeroW + ∑ g : Fin 2, A (ix3 g 0 0) := by
  simp only [Host.reduceAdd, Ideal.hostReduceAdd_def]
  rw [Ideal.hostReduceAdd_total reducesTo_S2_S_d0 (fun b => b.elim0), sum_idx1]
  refine congrArg (zeroW + ·) (Finset.sum_congr rfl fun g _ => ?_)
  refine shapeCast_apply A shapeCasts_S2x1x1_S2 (ix1 g) (ix3 g 0 0) ?_
  rw [Shape.rowMajor_val_three, Shape.rowMajor_val_one]
  show (g.val * 1 + 0) * 1 + 0 = g.val
  omega

/-- The second scalar results agree. -/
theorem rowMean_eq (hx : ∀ i, IsReal (xarg m c i)) (hp : ∀ i, IsReal (parg m c i)) :
    rowMean (rowSumArr m c) = Cert.ReferenceIdeal.Read.val_main_v13 (F := Ideal) (xarg m c) (parg m c) := by
  funext i
  rw [Cert.ReferenceIdeal.Read.val_main_v13_apply, Cert.ReferenceIdeal.RefRead.rowMinSum_eq]
  show (Host.reduceAdd (F := Ideal) (shapeCast S2 (rowSumArr m c) shapeCasts_S2x1x1_S2) (constant (F := Ideal) S_ .f32 0x00000000#32)
      reducesTo_S2_S_d0 h_S_ i) * Ideal.ofBits .f32 0x39000000#32 = Ideal.div _ (Ideal.ofBits .f32 0x46000000#32)
  rw [groupSum_at, mul_inv8192_eq_div]
  refine congrArg (fun y => Ideal.div y (Ideal.ofBits .f32 0x46000000#32)) ?_
  exact sum_regroup (fun R => Cert.ReferenceIdeal.Read.val_main_v11 (F := Ideal) (xarg m c) (parg m c) (ix1 R))
    (fun t => ∑ r : Fin 1024, tileRowMin m c (t.cast N_0.symm) r)
    (fun t => Finset.sum_congr rfl fun r _ => tileRowMin_eq m c hx hp t r)

end Cert.KernelIdeal.Means

end
-- ==== Proof.KernelRun.lean ====
/-
  The idealized kernel's run, read: the distance array ends at the distance table, and the two scalar
  results at the host's reductions of the two accumulator arrays; the arguments end unchanged.
-/
import proofs.«427825_j11802570129617_3_alg».proof.Proof.Means
import Idealize.ShloMosaic.Lib.StableHlo.Run

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Arrays Cert.KernelIdeal.Means Cert.Dist

variable (m : (ℓ : Loc nD τ sig) → Buf (Elt Ideal) ℓ) (ρ : Dev nD → PrngReg)

/-- The host operations after the region compute the first scalar from the column-minimum array. -/
theorem tail_colMean (c : Dev nD) :
    Pipeline.afterTail₀ cfgs (dats m) 0 (V0 m) [hostOps1] c main_v10 = colMean (colMinArr m c) := by
  unfold Pipeline.afterTail₀
  show StableHlo.after hostOps1 _ (Proc.devRef .tc main_v10) = _
  after_results
  exact congrArg colMean ((Pipeline.withArrays_arr spec0 launch0.win.arr_inj c _ _ 4).trans (final4 m c))

/-- The host operations after the region compute the second scalar from the sum array. -/
theorem tail_rowMean (c : Dev nD) :
    Pipeline.afterTail₀ cfgs (dats m) 0 (V0 m) [hostOps1] c main_v13 = rowMean (rowSumArr m c) := by
  unfold Pipeline.afterTail₀
  show StableHlo.after hostOps1 _ (Proc.devRef .tc main_v13) = _
  after_results
  exact congrArg rowMean ((Pipeline.withArrays_arr spec0 launch0.win.arr_inj c _ _ 5).trans (final5 m c))

/-- Every weakly fair execution from real inputs terminates with the three results at their values. -/
theorem run (hreal : ∀ c : Dev nD, (∀ i, IsReal (xarg m c i)) ∧ (∀ i, IsReal (parg m c i))) :
    θ_run defs (onTc (τ := τ) (main (F := Ideal))) ⟨m, fun _ => 0, ρ⟩ fun r => ∀ c : Dev nD,
      r.2.mem ((c.tc : Thread nD τ).loc main_v6_0) = distArr m c
      ∧ r.2.mem ((c.tc : Thread nD τ).loc main_v10) = colMean (colMinArr m c)
      ∧ r.2.mem ((c.tc : Thread nD τ).loc main_v13) = rowMean (rowSumArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 3).trans (final3 m c (hreal c).1 (hreal c).2),
     ((h c).2 main_v10 (Pipeline.mem_restRefs_of main_v10 (by decide) (by decide))).trans (tail_colMean m c),
     ((h c).2 main_v13 (Pipeline.mem_restRefs_of main_v13 (by decide) (by decide))).trans (tail_rowMean m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Run

end
-- ==== Proof.FiniteInputs.lean ====
import proofs.«427825_j11802570129617_3_alg».proof.Proof.Spec
import proofs.«427825_j11802570129617_3_alg».proof.Pre_finite_inputs
import Idealize.ShloMosaic.Lib.ReduceAll

noncomputable section

namespace Cert.Dist

open Idealize.ShloMosaic Idealize.ShloMosaic.ValueIdx

/-- The shape of a scalar has exactly one index. -/
private instance : Subsingleton Cert.Pre_finite_inputs.S_.Idx := ⟨fun a b => funext fun d => d.elim0⟩

/-- The word 0x7F800000 is +∞. -/
private theorem infWord_eq_top : Ideal.ofBits .f32 0x7F800000#32 = (⊤ : EReal) := by
  simp [Ideal.ofBits, Ideal.ieee]

/-- An extended real whose absolute value max a (-a) is strictly below +∞ is a real number:
    for a = ⊥ and for a = ⊤ the absolute value is ⊤, which is not below ⊤. -/
private theorem isReal_of_abs_lt (a : Ideal .f32)
    (h : FloatOps.cmpf .olt (FloatOps.hostAbsf a) (FloatOps.ofBits (F := Ideal) .f32 0x7F800000#32) = 1#1) :
    IsReal a := by
  rw [Ideal.hostAbsf_def, Ideal.cmpf_def, Ideal.absf_def, Ideal.ofBits_def, infWord_eq_top] at h
  induction a using EReal.rec with
  | bot => simp [Ideal.cmp] at h
  | top => simp [Ideal.cmp] at h
  | coe r => exact ⟨r, rfl⟩

/-- The precondition says every entry of both inputs is a real number. -/
theorem real_of_pre [Cert.Pre_finite_inputs.Facts] (x : FVec Ideal Cert.Pre_finite_inputs.S8192x64 .f32)
    (p : FVec Ideal Cert.Pre_finite_inputs.S512x64 .f32)
    (h : Cert.Pre_finite_inputs.fn (F := Ideal) x p = fun _ => 1#1) :
    (∀ i, IsReal (x i)) ∧ (∀ i, IsReal (p i)) := by
  -- the result bit, read at its one index, is the conjunction of the two reductions
  have h0 := congrFun h ValueIdx.ix0
  dsimp only [Cert.Pre_finite_inputs.fn] at h0
  obtain ⟨hx, hp⟩ := IntOp.andi_eq_one.1 h0
  refine ⟨fun i => ?_, fun i => ?_⟩
  · -- a conjunction over all entries that is 1 has a 1 at every entry: |x i| < +∞
    have e := Host.reduce_andi_all _ _ _ _ _ hx i
    exact isReal_of_abs_lt (x i) e
  · have e := Host.reduce_andi_all _ _ _ _ _ hp i
    exact isReal_of_abs_lt (p i) e

end Cert.Dist

end
-- ==== Proof.lean ====
/-
  A Euclidean codebook kernel against its jnp reference, over the extended reals.

  For x : 8192 × 64 and a codebook p : 512 × 64 the programs return the distance table
  D(R, v) = √(∑ₖ (x(R,k) − p(v,k))²), the mean over v of min_R D(R, v), and the mean over R of min_v D(R, v).
  The kernel computes D tile by tile (eight tiles of 1024 rows) in the expanded form
  √(max(‖x_R‖² + ‖p_v‖² − 2⟨x_R, p_v⟩, 0)); for real inputs the expansion is the sum of squared differences,
  which is nonnegative, so the clamp is the identity (DistAlgebra). Per group of four tiles it carries the
  running column minimum (from +∞) and the running sum of row minima (from 0); the host then takes the minimum,
  respectively the sum, over the two groups. Minimum and sum over 8192 rows regroup over 2 × 4 × 1024 rows
  (Regroup), and the product with 2⁻¹³ is the quotient by 8192.

  The frames of the two kernel programs are the generated ones; the reference's frame is its generated run
  with the results dropped. The ideal pass rewrote nothing, so the preservation claim is trivial.
-/
import proofs.«427825_j11802570129617_3_alg».proof.Defs
import proofs.«427825_j11802570129617_3_alg».proof.Proof.Gen.Kernel
import proofs.«427825_j11802570129617_3_alg».proof.Proof.Gen.Kernel.Skeleton
import proofs.«427825_j11802570129617_3_alg».proof.Proof.Gen.Kernel.Launch
import proofs.«427825_j11802570129617_3_alg».proof.Proof.Gen.Kernel.Points
import proofs.«427825_j11802570129617_3_alg».proof.Proof.Gen.Kernel.Frame
import proofs.«427825_j11802570129617_3_alg».proof.Proof.Gen.KernelIdeal
import proofs.«427825_j11802570129617_3_alg».proof.Proof.Gen.KernelIdeal.Skeleton
import proofs.«427825_j11802570129617_3_alg».proof.Proof.Gen.KernelIdeal.Launch
import proofs.«427825_j11802570129617_3_alg».proof.Proof.Gen.KernelIdeal.Points
import proofs.«427825_j11802570129617_3_alg».proof.Proof.Gen.KernelIdeal.Frame
import proofs.«427825_j11802570129617_3_alg».proof.Proof.Gen.ReferenceIdeal
import proofs.«427825_j11802570129617_3_alg».proof.Proof.Gen.ReferenceIdeal.Run
import proofs.«427825_j11802570129617_3_alg».proof.Proof.Gen.ReferenceIdeal.Read
import proofs.«427825_j11802570129617_3_alg».proof.Proof.Gen.Pre_finite_inputs
import proofs.«427825_j11802570129617_3_alg».proof.Proof.KernelRun
import proofs.«427825_j11802570129617_3_alg».proof.Proof.FiniteInputs
import Idealize.ShloMosaic.Adequacy
import Idealize.ShloMosaic.Init

noncomputable section

namespace Cert.Proof

open Idealize.ShloMosaic Idealize.SL.Sem Idealize.ShloMosaic.ValueIdx
open Cert.KernelIdeal.Blocks Cert.KernelIdeal.Arrays Cert.KernelIdeal.Means Cert.Dist

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- From real inputs that agree, both programs end with the distance table and the two means. -/
theorem algebraic : Cert.algebraic_KernelIdeal_ReferenceIdeal := by
  intro m ρ m' ρ' hpre hagree
  have hreal : ∀ c : Dev Cert.KernelIdeal.nD, (∀ i, IsReal (xarg m c i)) ∧ (∀ i, IsReal (parg m c i)) :=
    fun c => real_of_pre _ _ (hpre c)
  refine ⟨fun c => distArr m c, fun c => colMean (colMinArr m c), fun c => rowMean (rowSumArr m c),
    Cert.KernelIdeal.Run.run m ρ hreal, ?_⟩
  refine (θ_run Cert.ReferenceIdeal.defs _ _).mono (fun _ h c => ?_) (Cert.ReferenceIdeal.Value.run (F := Ideal) m' ρ')
  obtain ⟨h7, h10, h13, ha0, ha1⟩ := h c
  refine ⟨h7.trans ?_, h10.trans ?_, h13.trans ?_, ha0, ha1⟩
  · rw [(hagree c).1, (hagree c).2, Cert.ReferenceIdeal.Read.val_main_v7_eq]
    funext i
    obtain ⟨R, v, rfl⟩ : ∃ (R : Fin 8192) (v : Fin 512), i = ix2 R v := ⟨i 0, i 1, eq_ix2 i⟩
    exact Cert.ReferenceIdeal.RefRead.table_at (xarg m c) (parg m c) R v
  · rw [(hagree c).1, (hagree c).2, Cert.ReferenceIdeal.Read.val_main_v10_eq]
    exact (colMean_eq m c (hreal c).1 (hreal c).2).symm
  · rw [(hagree c).1, (hagree c).2, Cert.ReferenceIdeal.Read.val_main_v13_eq]
    exact (rowMean_eq m c (hreal c).1 (hreal c).2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
